-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096x1024 .f32) (main_arg5 : FVec F S1024 .f32) (main_arg6 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S1024x4096 .f32) (main_arg1 : FVec F S4096x4096 .f32) (main_arg2 : FVec F S4096 .f32) (main_arg3 : FVec F S4096x1024 .f32) (main_arg4 : FVec F S4096x1024 .f32) (main_arg5 : FVec F S1024 .f32) (main_arg6 : FVec F S1024 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S1x1024 : Shape := ⟨2, ![1, 1024]⟩
abbrev S1x4096 : Shape := ⟨2, ![1, 4096]⟩
abbrev S1024x512 : Shape := ⟨2, ![1024, 512]⟩
abbrev S1x128 : Shape := ⟨2, ![1, 128]⟩
abbrev S1024x128 : Shape := ⟨2, ![1024, 128]⟩
abbrev S1024x1024 : Shape := ⟨2, ![1024, 1024]⟩
abbrev S1x128x1 : Shape := ⟨3, ![1, 128, 1]⟩
abbrev S1x128x4 : Shape := ⟨3, ![1, 128, 4]⟩
abbrev S1x512 : Shape := ⟨2, ![1, 512]⟩
abbrev S1024x128x1 : Shape := ⟨3, ![1024, 128, 1]⟩
abbrev S1024x128x4 : Shape := ⟨3, ![1024, 128, 4]⟩
abbrev S512x1024 : Shape := ⟨2, ![512, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x4096, .f32⟩
  | .hbm, ⟨10, _⟩ => ⟨S1024x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .f32⟩
  | .local _ .vmem, ⟨15, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v54 : BitVec 1 := Scalar.cmpi .eq arg2 c7_i32
  let v55 : BitVec 32 := Scalar.extui v54
  let c0_i32_20 : BitVec 32 := 0#32
  let v56 : BitVec 1 := Scalar.cmpi .ne v55 c0_i32_20
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]

class Facts₀ : Prop where
  shapeCasts_S1024_S1x1024 : S1024.ShapeCasts S1x1024
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x128x1 : S1x128.ShapeCasts S1x128x1
  broadcasts_S1x128x1_S1x128x4 : S1x128x1.Broadcasts S1x128x4
  shapeCasts_S1x128x4_S1x512 : S1x128x4.ShapeCasts S1x512
  inb_S1024x128_S1024x128_0_0 : ∀ a, (![0, 0] : Fin 2 → Nat) a + S1024x128.size a ≤ S1024x128.size a
  h_S1024x128 : 0 < S1024x128.numel
  shapeCasts_S1024x128_S1024x128x1 : S1024x128.ShapeCasts S1024x128x1
  broadcasts_S1024x128x1_S1024x128x4 : S1024x128x1.Broadcasts S1024x128x4
  shapeCasts_S1024x128x4_S1024x512 : S1024x128x4.ShapeCasts S1024x512
  broadcasts_S1x512_S1024x512 : S1x512.Broadcasts S1024x512
  bitsLt_bf16_f32 : FTy.bits .bf16 < FTy.bits .f32
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .f32 = 32 ∨ (Rect.block (s := S1024x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .f32 = 32 ∨ (Rect.block (s := S1x1024) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .f32 = 32 ∨ (Rect.block (s := S1x1024) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x1024.size a
  hwx0_5 : ∀ i : grid0.Coords, EltTy.bits .f32 = 32 ∨ (Rect.block (s := S4096x1024) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S4096x1024.size a
  hwx0_6 : ∀ i : grid0.Coords, EltTy.bits .f32 = 32 ∨ (Rect.block (s := S4096x1024) S1024x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x4096.size a
  hwx0_7 : ∀ i : grid0.Coords, EltTy.bits .f32 = 32 ∨ (Rect.block (s := S1024x4096) S1024x1024.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S4096 : Shape := ⟨1, ![4096]⟩
abbrev S4096x1024 : Shape := ⟨2, ![4096, 1024]⟩
abbrev S1024 : Shape := ⟨1, ![1024]⟩
abbrev S1024x1024x4 : Shape := ⟨3, ![1024, 1024, 4]⟩
abbrev S1x1024x1 : Shape := ⟨3, ![1, 1024, 1]⟩
abbrev S_ : Shape := ⟨0, ![]⟩
abbrev S4096x1024x4 : Shape := ⟨3, ![4096, 1024, 4]⟩
abbrev S4096x1024x1 : Shape := ⟨3, ![4096, 1024, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x4096, .f32⟩
  | .hbm, ⟨2, _⟩ => ⟨S4096, .f32⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S1024x1024x4, .f32⟩
  | .hbm, ⟨8, _⟩ => ⟨S1x1024x1, .f32⟩
  | .hbm, ⟨9, _⟩ => ⟨S1x1024x1, .f32⟩
  | .hbm, ⟨10, _⟩ => ⟨S1024x1024x4, .f32⟩
  | .hbm, ⟨11, _⟩ => ⟨S1024x1024x4, .f32⟩
  | .hbm, ⟨12, _⟩ => ⟨S1024x1024x4, .f32⟩
  | .hbm, ⟨13, _⟩ => ⟨S1024x1024x4, .f32⟩
  | .hbm, ⟨14, _⟩ => ⟨S1024x1024x4, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x1024x4, .f32⟩
  | .hbm, ⟨19, _⟩ => ⟨S1024x1024x4, .f32⟩
  | .hbm, ⟨20, _⟩ => ⟨S_, .f32⟩
  | .hbm, ⟨21, _⟩ => ⟨S1024x1024x4, .f32⟩
  | .hbm, ⟨22, _⟩ => ⟨S1024x1024x4, .f32⟩
  | .hbm, ⟨23, _⟩ => ⟨S1024x1024x4, .f32⟩
  | .hbm, ⟨24, _⟩ => ⟨S1024x1024x4, .f32⟩
  | .hbm, ⟨25, _⟩ => ⟨S1024x1024x4, .f32⟩
  | .hbm, ⟨26, _⟩ => ⟨S1024x1024x4, .f32⟩
  | .hbm, ⟨27, _⟩ => ⟨S1024x4096, .f32⟩
  | .hbm, ⟨28, _⟩ => ⟨S4096x1024x4, .f32⟩
  | .hbm, ⟨29, _⟩ => ⟨S4096x1024x1, .f32⟩
  | .hbm, ⟨30, _⟩ => ⟨S4096x1024x1, .f32⟩
  | .hbm, ⟨31, _⟩ => ⟨S4096x1024x4, .f32⟩
  | .hbm, ⟨32, _⟩ => ⟨S4096x1024x4, .f32⟩
  | .hbm, ⟨33, _⟩ => ⟨S4096x1024x4, .f32⟩
  | .hbm, ⟨34, _⟩ => ⟨S4096x1024x4, .f32⟩
  | .hbm, ⟨35, _⟩ => ⟨S4096x1024x4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x1024x4, .f32⟩
  | .hbm, ⟨40, _⟩ => ⟨S4096x1024x4, .f32⟩
  | .hbm, ⟨41, _⟩ => ⟨S_, .f32⟩
  | .hbm, ⟨42, _⟩ => ⟨S4096x1024x4, .f32⟩
  | .hbm, ⟨43, _⟩ => ⟨S4096x1024x4, .f32⟩
  | .hbm, ⟨44, _⟩ => ⟨S4096x1024x4, .f32⟩
  | .hbm, ⟨45, _⟩ => ⟨S4096x1024x4, .f32⟩
  | .hbm, ⟨46, _⟩ => ⟨S4096x1024x4, .f32⟩
  | .hbm, ⟨47, _⟩ => ⟨S4096x1024x4, .f32⟩
  | .hbm, ⟨48, _⟩ => ⟨S4096x4096, .f32⟩
  | .hbm, ⟨49, _⟩ => ⟨S4096x4096, .f32⟩
  | .hbm, ⟨50, _⟩ => ⟨S1024x4096, .f32⟩
  | .hbm, ⟨51, _⟩ => ⟨S1x4096, .f32⟩
  | .hbm, ⟨52, _⟩ => ⟨S1024x4096, .f32⟩
  | .hbm, ⟨53, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_cst_2 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  shapeCasts_S1024x4096_S1024x1024x4 : S1024x4096.ShapeCasts S1024x1024x4
  bcast_S1024_S1x1024x1_1 : S1024.BroadcastsInDim S1x1024x1 (![1] : Fin 1 → Fin S1x1024x1.rank)
  bcast_S1x1024x1_S1024x1024x4_0_1_2 : S1x1024x1.BroadcastsInDim S1024x1024x4 (![0, 1, 2] : Fin 3 → Fin S1024x1024x4.rank)
  bcast_S_S1024x1024x4 : S_.BroadcastsInDim S1024x1024x4 (![] : Fin 0 → Fin S1024x1024x4.rank)
  shapeCasts_S1024x1024x4_S1024x4096 : S1024x1024x4.ShapeCasts S1024x4096
  shapeCasts_S4096x4096_S4096x1024x4 : S4096x4096.ShapeCasts S4096x1024x4
  bcast_S4096x1024_S4096x1024x1_0_1 : S4096x1024.BroadcastsInDim S4096x1024x1 (![0, 1] : Fin 2 → Fin S4096x1024x1.rank)
  bcast_S4096x1024x1_S4096x1024x4_0_1_2 : S4096x1024x1.BroadcastsInDim S4096x1024x4 (![0, 1, 2] : Fin 3 → Fin S4096x1024x4.rank)
  bcast_S_S4096x1024x4 : S_.BroadcastsInDim S4096x1024x4 (![] : Fin 0 → Fin S4096x1024x4.rank)
  shapeCasts_S4096x1024x4_S4096x4096 : S4096x1024x4.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.QuantLinear.lean ====
/-
  The function both programs compute, at the ideal values.

  An element `v` whose block has scale `s` and zero point `z` is fake-quantised to
  `(min 255 (max 0 (round (v / s + z))) - z) * s`, the rounding to nearest with ties to even. Feature `k` of a row
  lies in block `k / 4`. The activations have one scale and zero point per block, shared by all rows; the weights have
  one per output row and block. The layer's output at `(i, j)` is the sum over the 4096 features `k` of the quantised
  activation `(i, k)` times the quantised weight `(j, k)`, plus `bias j`.

  The kernel walks the features in 8 runs of 512 and the output columns in 4 runs of 1024: grid point `n` handles
  feature run `n % 8` of column run `n / 8` and adds `addend n` to what it keeps. `out_eq_runs` regroups the
  sum over the features into the 8 runs; it uses only that addition of extended reals is commutative and
  associative, so no finiteness enters.
-/
import Idealize.ShloMosaic.PureOps.Ideal
import Idealize.ShloMosaic.PureOps.Ideal.Laws
import Idealize.ShloMosaic.Lib.ValueIdx

noncomputable section

namespace Cert.QuantLinear

open Idealize.ShloMosaic Idealize.ShloMosaic.ValueIdx

/-- One element, quantised to the 256 levels of its block and mapped back. -/
def quant (v s z : EReal) : EReal :=
  (min (Ideal.ofBits .f32 0x437F0000#32)
      (max (Ideal.ofBits .f32 0x00000000#32) (Ideal.liftRound Ideal.roundHalfEven (Ideal.div v s + z))) - z) * s

/-- The block of feature `k`. -/
def blockOf (k : Fin 4096) : Fin 1024 := ⟨k.val / 4, by have := k.isLt; omega⟩

variable (x : (⟨2, ![1024, 4096]⟩ : Shape).Idx → EReal) (w : (⟨2, ![4096, 4096]⟩ : Shape).Idx → EReal)
  (b : (⟨1, ![4096]⟩ : Shape).Idx → EReal) (ws wz : (⟨2, ![4096, 1024]⟩ : Shape).Idx → EReal)
  (as az : (⟨1, ![1024]⟩ : Shape).Idx → EReal)

/-- The quantised activation of row `i`, feature `k`. -/
def actQ (i : Fin 1024) (k : Fin 4096) : EReal :=
  quant (x (ix2 i k)) (as (ix1 (blockOf k))) (az (ix1 (blockOf k)))

/-- The quantised weight of output row `j`, feature `k`. -/
def weightQ (j : Fin 4096) (k : Fin 4096) : EReal :=
  quant (w (ix2 j k)) (ws (ix2 j (blockOf k))) (wz (ix2 j (blockOf k)))

/-- The layer's output at row `i`, column `j`. -/
def outAt (i : Fin 1024) (j : Fin 4096) : EReal :=
  (∑ k : Fin 4096, actQ x as az i k * weightQ w ws wz j k) + b (ix1 j)

/-- The layer's output, as an array. -/
def out : (⟨2, ![1024, 4096]⟩ : Shape).Idx → EReal := fun ij => outAt x w b ws wz as az (ij 0) (ij 1)

/-- Feature `e` of feature run `n % 8`. -/
def featOf (n : Nat) (e : Fin 512) : Fin 4096 := ⟨512 * (n % 8) + e.val, by have := e.isLt; omega⟩

/-- The block, inside a run of 512 features, of the run's feature `e`. -/
def subBlock (e : Fin 512) : Fin 128 := ⟨e.val / 4, by have := e.isLt; omega⟩

/-- Column `cc` of column run `n / 8` (taken below 4, so that every natural names a column). -/
def colOf (n : Nat) (cc : Fin 1024) : Fin 4096 := ⟨1024 * (n / 8 % 4) + cc.val, by have := cc.isLt; omega⟩

/-- What grid point `n` adds at `(r, cc)` of its column run: its feature run's share of the sum. -/
def addend (n : Nat) (r cc : Fin 1024) : EReal :=
  ∑ e : Fin 512, actQ x as az r (featOf n e) * weightQ w ws wz (colOf n cc) (featOf n e)

/-- A sum over the 4096 features, run by run. -/
theorem sum_features_eq_runs (g : Fin 4096 → EReal) :
    ∑ k : Fin 4096, g k = ∑ s ∈ Finset.range 8, ∑ e : Fin 512, g (featOf s e) := by
  have h1 : ∑ k : Fin 4096, g k = ∑ p : Fin 8 × Fin 512, g (finProdFinEquiv p) :=
    (Equiv.sum_comp (finProdFinEquiv (m := 8) (n := 512)) g).symm
  rw [h1, Fintype.sum_prod_type, ← Fin.sum_univ_eq_sum_range (fun s => ∑ e : Fin 512, g (featOf s e)) 8]
  refine Finset.sum_congr rfl fun a _ => Finset.sum_congr rfl fun e _ => congrArg g (Fin.ext ?_)
  have ha := a.isLt
  show e.val + 512 * a.val = 512 * (a.val % 8) + e.val
  rw [Nat.mod_eq_of_lt ha]; omega

/-- The output at column `cc` of column run `q` is the eight addends of that run's points, summed from zero, plus
    the bias. -/
theorem outAt_eq_runs (q : Nat) (hq : q < 4) (r cc : Fin 1024) :
    outAt x w b ws wz as az r (colOf (8 * q) cc)
      = ((Ideal.ofBits .f32 0x00000000#32 : EReal) + ∑ s ∈ Finset.range 8, addend x w ws wz as az (8 * q + s) r cc)
        + b (ix1 (colOf (8 * q) cc)) := by
  have hz : (Ideal.ofBits .f32 0x00000000#32 : EReal) = 0 := Ideal.ofBits_zero_f32
  unfold outAt
  rw [hz, zero_add, sum_features_eq_runs]
  congr 1
  refine Finset.sum_congr rfl fun s hs => ?_
  have hs8 : s < 8 := Finset.mem_range.mp hs
  unfold addend
  have hf : ∀ e : Fin 512, featOf (8 * q + s) e = featOf s e := fun e => Fin.ext (by
    show 512 * ((8 * q + s) % 8) + e.val = 512 * (s % 8) + e.val
    rw [Nat.mul_add_mod])
  have hc : colOf (8 * q + s) cc = colOf (8 * q) cc := Fin.ext (by
    show 1024 * ((8 * q + s) / 8 % 4) + cc.val = 1024 * ((8 * q) / 8 % 4) + cc.val
    have : (8 * q + s) / 8 = q := by omega
    have : (8 * q) / 8 = q := by omega
    simp only [*])
  simp only [hf, hc]

end Cert.QuantLinear

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Payload.lean ====
/-
  The arithmetic of the kernel body, read at an index at the ideal values.

  The skeleton of the kernel's body names each value the body stores or carries as a pure term over the values read
  before it.
  Here every such term is read at a coordinate pair. The per-block scales and zero points reach the feature axis
  through a cast of a `[n, 128]` block to `[n, 128, 1]`, a broadcast to `[n, 128, 4]` and a cast to `[n, 512]`;
  the casts keep the row-major position, and feature `e` is `4 * (e / 4) + e % 4` with `e % 4 < 4`, so entry
  `(j, e)` of the result is entry `(j, e / 4)` of the block. The matrix product contracts the 512 features of the
  run, its right operand being the transposed fake-quantised weights.
-/
import proofs.«113530_j13520557047882_1_alg».proof.Proof.Gen.KernelIdeal.Skeleton
import proofs.«113530_j13520557047882_1_alg».proof.Proof.QuantLinear
import proofs.«113530_j13520557047882_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.QuantLinear.Payload

open Cert.KernelIdeal Cert.KernelIdeal.Gen Idealize.ShloMosaic Idealize.ShloMosaic.ValueIdx Cert.QuantLinear

/-! ## The layout chain that repeats each block's value over its four features -/

section Layout
variable {α : Type} {n : ℕ}

/-- An `[n, 128]` array cast to `[n, 128, 1]` reads, at `(j, b, u)`, the operand at `(j, b)`. -/
theorem shapeCast_addTrailingUnit_apply (x : (⟨2, ![n, 128]⟩ : Shape).Idx → α)
    (h : (⟨2, ![n, 128]⟩ : Shape).ShapeCasts ⟨3, ![n, 128, 1]⟩) (j : Fin n) (b : Fin 128) (u : Fin 1) :
    shapeCast ⟨3, ![n, 128, 1]⟩ x h (ix3 j b u) = x (ix2 j b) :=
  shapeCast_apply x h _ _ (by
    rw [Shape.rowMajor_val_three, Shape.rowMajor_val_two]
    show j.val * 128 + b.val = (j.val * 128 + b.val) * 1 + u.val
    have := u.isLt
    omega)

/-- An `[n, 128, 1]` array broadcast to `[n, 128, 4]` reads, at `(j, b, c)`, the operand at `(j, b, 0)`. -/
theorem broadcastTo_trailingUnit_apply (x : (⟨3, ![n, 128, 1]⟩ : Shape).Idx → α)
    (h : (⟨3, ![n, 128, 1]⟩ : Shape).Broadcasts ⟨3, ![n, 128, 4]⟩) (j : Fin n) (b : Fin 128) (c : Fin 4) :
    broadcastTo ⟨3, ![n, 128, 4]⟩ x h (ix3 j b c) = x (ix3 j b (0 : Fin 1)) := by
  refine broadcastTo_apply x h (ix3 j b c) (ix3 j b (0 : Fin 1)) fun ax => ?_
  match ax with
  | ⟨0, _⟩ =>
    show j.val = if n = 1 then 0 else j.val
    split
    · have := j.isLt; omega
    · rfl
  | ⟨1, _⟩ => rfl
  | ⟨2, _⟩ => rfl

/-- An `[n, 128, 4]` array cast to `[n, 512]` reads, at `(j, e)`, the operand at `(j, e / 4, e % 4)`. -/
theorem shapeCast_mergeFour_apply (x : (⟨3, ![n, 128, 4]⟩ : Shape).Idx → α)
    (h : (⟨3, ![n, 128, 4]⟩ : Shape).ShapeCasts ⟨2, ![n, 512]⟩) (j : Fin n) (e : Fin 512) :
    shapeCast ⟨2, ![n, 512]⟩ x h (ix2 j e)
      = x (ix3 j (subBlock e) (⟨e.val % 4, Nat.mod_lt _ (by decide)⟩ : Fin 4)) :=
  shapeCast_apply x h _ _ (by
    rw [Shape.rowMajor_val_three, Shape.rowMajor_val_two]
    show (j.val * 128 + e.val / 4) * 4 + e.val % 4 = j.val * 512 + e.val
    omega)

/-- The whole chain: entry `(j, e)` of the `[n, 512]` result is entry `(j, e / 4)` of the `[n, 128]` block. -/
theorem blockRep_apply (x : (⟨2, ![n, 128]⟩ : Shape).Idx → α)
    (h1 : (⟨2, ![n, 128]⟩ : Shape).ShapeCasts ⟨3, ![n, 128, 1]⟩)
    (h2 : (⟨3, ![n, 128, 1]⟩ : Shape).Broadcasts ⟨3, ![n, 128, 4]⟩)
    (h3 : (⟨3, ![n, 128, 4]⟩ : Shape).ShapeCasts ⟨2, ![n, 512]⟩) (j : Fin n) (e : Fin 512) :
    shapeCast ⟨2, ![n, 512]⟩ (broadcastTo ⟨3, ![n, 128, 4]⟩ (shapeCast ⟨3, ![n, 128, 1]⟩ x h1) h2) h3 (ix2 j e)
      = x (ix2 j (subBlock e)) :=
  (shapeCast_mergeFour_apply _ h3 j e).trans
    ((broadcastTo_trailingUnit_apply _ h2 j (subBlock e) _).trans
      (shapeCast_addTrailingUnit_apply x h1 j (subBlock e) 0))

end Layout

/-! ## The weights' scales and zero points over the features -/

theorem scaleRep_apply (v : FVec Ideal S1024x128 .f32) (j : Fin 1024) (e : Fin 512) :
    k0_pay4 (F := Ideal) v (ix2 j e) = v (ix2 j (subBlock e)) := by
  unfold k0_pay4
  exact blockRep_apply v _ _ _ j e

theorem zeroRep_apply (v : FVec Ideal S1024x128 .f32) (j : Fin 1024) (e : Fin 512) :
    k0_pay5 (F := Ideal) v (ix2 j e) = v (ix2 j (subBlock e)) := by
  unfold k0_pay5
  exact blockRep_apply v _ _ _ j e

/-! ## The fake-quantised activations -/

/-- The activations' chain: the one row of per-block values, repeated over each block's four features and then over
    the 1024 rows, reads at `(r, e)` the row's entry `e / 4`. -/
theorem rowRep_apply (v : FVec Ideal S1x128 .f32) (h0 : S1x128.ShapeCasts S1x128) (h1 : S1x128.ShapeCasts S1x128x1)
    (h2 : S1x128x1.Broadcasts S1x128x4) (h3 : S1x128x4.ShapeCasts S1x512) (h4 : S1x512.Broadcasts S1024x512)
    (r : Fin 1024) (e : Fin 512) :
    broadcastTo S1024x512 (shapeCast S1x512 (broadcastTo S1x128x4 (shapeCast S1x128x1 (shapeCast S1x128 v h0) h1) h2) h3) h4
        (ix2 r e)
      = v (ix2 (0 : Fin 1) (subBlock e)) := by
  refine (broadcastTo_1b_ab_apply _ h4 r e).trans ?_
  refine (blockRep_apply _ h1 h2 h3 (0 : Fin 1) e).trans ?_
  rw [shapeCast_self]

theorem act_apply (xb : FVec Ideal S1024x512 .f32) (sb zb : FVec Ideal S1x128 .f32) (r : Fin 1024) (e : Fin 512) :
    k0_pay6 (F := Ideal) xb sb zb (ix2 r e)
      = quant (xb (ix2 r e)) (sb (ix2 (0 : Fin 1) (subBlock e))) (zb (ix2 (0 : Fin 1) (subBlock e))) := by
  have hs := rowRep_apply sb Gen.shapeCasts_S1x128_S1x128 Gen.shapeCasts_S1x128_S1x128x1 Gen.broadcasts_S1x128x1_S1x128x4
    Gen.shapeCasts_S1x128x4_S1x512 Gen.broadcasts_S1x512_S1024x512 r e
  have hz := rowRep_apply zb Gen.shapeCasts_S1x128_S1x128 Gen.shapeCasts_S1x128_S1x128x1 Gen.broadcasts_S1x128x1_S1x128x4
    Gen.shapeCasts_S1x128x4_S1x512 Gen.broadcasts_S1x512_S1024x512 r e
  rw [← hs, ← hz]
  rfl

/-! ## The weights, scaled and rounded -/

theorem wround_apply (wb : FVec Ideal S1024x512 .f32) (wsb wzb : FVec Ideal S1024x128 .f32) (j : Fin 1024) (e : Fin 512) :
    k0_pay7 (F := Ideal) wb wsb wzb (ix2 j e)
      = Ideal.liftRound Ideal.roundHalfEven (Ideal.div (wb (ix2 j e)) (wsb (ix2 j (subBlock e))) + wzb (ix2 j (subBlock e))) := by
  rw [← scaleRep_apply wsb j e, ← zeroRep_apply wzb j e]
  rfl

/-! ## The run's share of the product, added to what is kept -/

/-- The product of a `[1024, 512]` matrix with the transpose of another, into zero, at `(r, cc)`: the sum over
    the 512 features of the two rows' entries multiplied. -/
theorem matmul_transposed_apply (a b : FVec Ideal S1024x512 .bf16) (hT : S1024x512.Transposes [1, 0] S512x1024)
    (r cc : Fin 1024) :
    matmul dot_S1024x512_S512x1024_S1024x1024_1_0_0_1_n_n none a (transpose S512x1024 [1, 0] b hT)
        (constant S1024x1024 .f32 0x00000000#32) (ix2 r cc)
      = ∑ e : Fin 512, a (ix2 r e) * b (ix2 cc e) := by
  refine (PlainDot.matmul_zero_apply 1024 512 1024 none a (transpose S512x1024 [1, 0] b hT) (ix2 r cc)).trans ?_
  refine Finset.sum_congr rfl fun e _ => ?_
  show a (ix2 r e) * transpose S512x1024 [1, 0] b hT (ix2 e cc) = _
  rw [transpose_ix2_apply]

/-- That product added to `acc`, through the cast of a `[1024, 1024]` array to its own shape. -/
theorem addf_matmul_transposed_apply (acc : FVec Ideal S1024x1024 .f32) (a b : FVec Ideal S1024x512 .bf16)
    (hT : S1024x512.Transposes [1, 0] S512x1024) (hC : S1024x1024.ShapeCasts S1024x1024) (r cc : Fin 1024) :
    shapeCast S1024x1024 (addf acc (matmul dot_S1024x512_S512x1024_S1024x1024_1_0_0_1_n_n none a
        (transpose S512x1024 [1, 0] b hT) (constant S1024x1024 .f32 0x00000000#32))) hC (ix2 r cc)
      = acc (ix2 r cc) + ∑ e : Fin 512, a (ix2 r e) * b (ix2 cc e) := by
  rw [shapeCast_self, addf_apply, matmul_transposed_apply]

theorem acc_apply (v18 v22 v35 v38 : FVec Ideal S1024x512 .f32) (cst : Ideal .f32) (acc : FVec Ideal S1024x1024 .f32)
    (r cc : Fin 1024) :
    k0_pay1 (F := Ideal) v18 v22 v35 v38 cst acc (ix2 r cc)
      = acc (ix2 r cc) + ∑ e : Fin 512, v35 (ix2 r e)
          * ((min (Ideal.ofBits .f32 0x437F0000#32) (max cst (v38 (ix2 cc e))) - v22 (ix2 cc e)) * v18 (ix2 cc e)) := by
  unfold k0_pay1
  refine (addf_matmul_transposed_apply acc _ _ _ _ r cc).trans ?_
  rfl

theorem acc_quant_apply (wb : FVec Ideal S1024x512 .f32) (wsb wzb : FVec Ideal S1024x128 .f32)
    (xq : FVec Ideal S1024x512 .f32) (acc : FVec Ideal S1024x1024 .f32) (r cc : Fin 1024) :
    k0_pay1 (F := Ideal) (k0_pay4 wsb) (k0_pay5 wzb) xq (k0_pay7 wb wsb wzb) (Ideal.ofBits .f32 0x00000000#32) acc (ix2 r cc)
      = acc (ix2 r cc) + ∑ e : Fin 512, xq (ix2 r e)
          * quant (wb (ix2 cc e)) (wsb (ix2 cc (subBlock e))) (wzb (ix2 cc (subBlock e))) := by
  rw [acc_apply]
  refine congrArg (acc (ix2 r cc) + ·) (Finset.sum_congr rfl fun e _ => ?_)
  rw [wround_apply, scaleRep_apply, zeroRep_apply]
  rfl

/-! ## The bias added at the last run, and the reset at the first -/

theorem bias_apply (a : FVec Ideal S1024x1024 .f32) (bb : FVec Ideal S1x1024 .f32) (r cc : Fin 1024) :
    k0_pay2 (F := Ideal) a bb (ix2 r cc) = a (ix2 r cc) + bb (ix2 (0 : Fin 1) cc) := by
  unfold k0_pay2
  show a (ix2 r cc) + broadcastTo S1024x1024 (shapeCast S1x1024 bb Gen.shapeCasts_S1x1024_S1x1024)
    Gen.broadcasts_S1x1024_S1024x1024 (ix2 r cc) = _
  rw [broadcastTo_1b_ab_apply, shapeCast_self]

theorem reset_apply (r cc : Fin 1024) : (k0_pay3 (F := Ideal)) (ix2 r cc) = Ideal.ofBits .f32 0x00000000#32 := by
  unfold k0_pay3
  show shapeCast S1024x1024 (broadcast S1024x1024 (Ideal.ofBits .f32 0x00000000#32))
    Gen.shapeCasts_S1024x1024_S1024x1024 (ix2 r cc) = _
  rw [shapeCast_self]
  rfl

end Cert.QuantLinear.Payload

end
-- ==== Proof.Blocks.lean ====
/-
  The windows' blocks at a grid point, read at an index of the argument arrays.

  Grid point `t` of the 1 × 4 × 8 grid works on column run `t / 8` (1024 output columns) and feature run `t % 8`
  (512 features, 128 blocks of four). Its activation block is rows 0 … 1023 of that feature run; its weight block the
  column run's rows of the weight at that feature run; its scale and zero-point blocks the matching 128 blocks; its
  bias block the column run's 1024 entries. The bias and the activations' scales and zero points reach the kernel
  as one-row arrays, a reshape of the arguments.
-/
import proofs.«113530_j13520557047882_1_alg».proof.Proof.Gen.KernelIdeal.Frame
import proofs.«113530_j13520557047882_1_alg».proof.Proof.QuantLinear
import Idealize.ShloMosaic.Lib.Pipeline.Value
import Idealize.ShloMosaic.Lib.ValueIdx
import Idealize.ShloMosaic.Lib.ValueLayout
import Idealize.ShloMosaic.Lib.StableHlo.Run

noncomputable section

namespace Cert.QuantLinear.Blocks

open Cert.KernelIdeal Cert.KernelIdeal.Gen Idealize.ShloMosaic Idealize.ShloMosaic.TcCoe Idealize.SL.Sem
open Idealize.ShloMosaic.ValueIdx Cert.QuantLinear

variable {F : FTy → Type} [FloatOps F]
variable (m : (ℓ : Loc nD τ sig) → Buf (Elt F) ℓ)

/-- The windows' block indices at grid point `t`: the feature run is `t % 8`, the column run `t / 8`. -/
theorem index_facts : ∀ t : Fin cfg0.N,
    win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = t.val / 8 ∧ win0_5.index t (1 : Fin 2) = t.val % 8
    ∧ win0_6.index t (0 : Fin 2) = t.val / 8 ∧ win0_6.index t (1 : Fin 2) = t.val % 8
    ∧ win0_7.index t (0 : Fin 2) = 0 ∧ win0_7.index t (1 : Fin 2) = t.val / 8 :=
  (by decide +kernel : ∀ t : Fin grid0.N, _)

/-- A grid point's column run is one of the four. -/
theorem colRun_lt (t : Fin cfg0.N) : t.val / 8 < 4 := by
  have := lt_of_lt_of_eq t.isLt (show cfg0.N = 32 from N_0); omega

/-- Block `sb` of feature run `n % 8`, among the 1024 blocks of a row. -/
def blockAt (n : Nat) (sb : Fin 128) : Fin 1024 := ⟨128 * (n % 8) + sb.val, by have := sb.isLt; omega⟩

/-- The block of a run's feature is the run's block of that feature. -/
theorem blockOf_featOf (n : Nat) (e : Fin 512) : blockOf (featOf n e) = blockAt n (subBlock e) :=
  Fin.ext (by show (512 * (n % 8) + e.val) / 4 = 128 * (n % 8) + e.val / 4; omega)

/-- The activation block of point `t` holds rows `0 … 1023` of feature run `t % 8`. -/
theorem act_block (c : Dev nD) (t : Fin cfg0.N) (r : Fin 1024) (e : Fin 512) :
    (iblk m c 0 t : Vec F S1024x512 .f32) (ix2 r e) = m ((c : Thread nD τ).loc main_arg0) (ix2 r (featOf t.val e)) := by
  obtain ⟨a0, a1, -⟩ := index_facts t
  unfold iblk
  rw [View.read_apply]
  show V m c main_arg0 _ = _
  rw [V_main_arg0]
  congr 1
  funext a; apply Fin.ext
  match a with
  | ⟨0, _⟩ => show win0_0.index t 0 * 1024 + 1 * r.val = r.val; rw [a0]; omega
  | ⟨1, _⟩ => show win0_0.index t 1 * 512 + 1 * e.val = 512 * (t.val % 8) + e.val; rw [a1]; omega

/-- The weight block of point `t` holds the column run's rows at feature run `t % 8`. -/
theorem weight_block (c : Dev nD) (t : Fin cfg0.N) (cc : Fin 1024) (e : Fin 512) :
    (iblk m c 1 t : Vec F S1024x512 .f32) (ix2 cc e)
      = m ((c : Thread nD τ).loc main_arg1) (ix2 (colOf t.val cc) (featOf t.val e)) := by
  obtain ⟨-, -, a0, a1, -⟩ := index_facts t
  have hq := colRun_lt t
  unfold iblk
  rw [View.read_apply]
  show V m c main_arg1 _ = _
  rw [V_main_arg1]
  congr 1
  funext a; apply Fin.ext
  match a with
  | ⟨0, _⟩ => show win0_1.index t 0 * 1024 + 1 * cc.val = 1024 * (t.val / 8 % 4) + cc.val; rw [a0, Nat.mod_eq_of_lt hq]; omega
  | ⟨1, _⟩ => show win0_1.index t 1 * 512 + 1 * e.val = 512 * (t.val % 8) + e.val; rw [a1]; omega

/-- The weights' scale block of point `t`: the column run's rows, the feature run's 128 blocks. -/
theorem wscale_block (c : Dev nD) (t : Fin cfg0.N) (cc : Fin 1024) (sb : Fin 128) :
    (iblk m c 5 t : Vec F S1024x128 .f32) (ix2 cc sb)
      = m ((c : Thread nD τ).loc main_arg3) (ix2 (colOf t.val cc) (blockAt t.val sb)) := by
  obtain ⟨-, -, -, -, -, -, -, -, -, -, a0, a1, -⟩ := index_facts t
  have hq := colRun_lt t
  unfold iblk
  rw [View.read_apply]
  show V m c main_arg3 _ = _
  rw [V_main_arg3]
  congr 1
  funext a; apply Fin.ext
  match a with
  | ⟨0, _⟩ => show win0_5.index t 0 * 1024 + 1 * cc.val = 1024 * (t.val / 8 % 4) + cc.val; rw [a0, Nat.mod_eq_of_lt hq]; omega
  | ⟨1, _⟩ => show win0_5.index t 1 * 128 + 1 * sb.val = 128 * (t.val % 8) + sb.val; rw [a1]; omega

/-- The weights' zero-point block of point `t`, likewise. -/
theorem wzero_block (c : Dev nD) (t : Fin cfg0.N) (cc : Fin 1024) (sb : Fin 128) :
    (iblk m c 6 t : Vec F S1024x128 .f32) (ix2 cc sb)
      = m ((c : Thread nD τ).loc main_arg4) (ix2 (colOf t.val cc) (blockAt t.val sb)) := by
  obtain ⟨-, -, -, -, -, -, -, -, -, -, -, -, a0, a1, -⟩ := index_facts t
  have hq := colRun_lt t
  unfold iblk
  rw [View.read_apply]
  show V m c main_arg4 _ = _
  rw [V_main_arg4]
  congr 1
  funext a; apply Fin.ext
  match a with
  | ⟨0, _⟩ => show win0_6.index t 0 * 1024 + 1 * cc.val = 1024 * (t.val / 8 % 4) + cc.val; rw [a0, Nat.mod_eq_of_lt hq]; omega
  | ⟨1, _⟩ => show win0_6.index t 1 * 128 + 1 * sb.val = 128 * (t.val % 8) + sb.val; rw [a1]; omega

/-- The one-row array of the activations' scales, as the region finds it: the argument, reshaped. -/
theorem ascale_row (c : Dev nD) : (V m c main_v0 : S1x1024.Idx → Elt F .f32)
    = shapeCast S1x1024 (m ((c : Thread nD τ).loc main_arg5)) shapeCasts_S1024_S1x1024 := by
  dsimp only [V, hostOps0]; after_results; rfl

/-- The one-row array of the activations' zero points, likewise. -/
theorem azero_row (c : Dev nD) : (V m c main_v1 : S1x1024.Idx → Elt F .f32)
    = shapeCast S1x1024 (m ((c : Thread nD τ).loc main_arg6)) shapeCasts_S1024_S1x1024 := by
  dsimp only [V, hostOps0]; after_results; rfl

/-- The one-row array of the bias, likewise. -/
theorem bias_row (c : Dev nD) : (V m c main_v2 : S1x4096.Idx → Elt F .f32)
    = shapeCast S1x4096 (m ((c : Thread nD τ).loc main_arg2)) shapeCasts_S4096_S1x4096 := by
  dsimp only [V, hostOps0]; after_results; rfl

/-- The activations' scale block of point `t`: the feature run's 128 blocks. -/
theorem ascale_block (c : Dev nD) (t : Fin cfg0.N) (sb : Fin 128) :
    (iblk m c 3 t : Vec F S1x128 .f32) (ix2 (0 : Fin 1) sb) = m ((c : Thread nD τ).loc main_arg5) (ix1 (blockAt t.val sb)) := by
  obtain ⟨-, -, -, -, -, -, a0, a1, -⟩ := index_facts t
  unfold iblk
  rw [View.read_apply]
  show V m c main_v0 _ = _
  rw [ascale_row]
  refine (congrArg _ (?_ : _ = ix2 (0 : Fin 1) (blockAt t.val sb))).trans (shapeCast_a_1a_apply _ _ _ _)
  funext a; apply Fin.ext
  match a with
  | ⟨0, _⟩ => show win0_3.index t 0 * 1 + 1 * 0 = 0; rw [a0]
  | ⟨1, _⟩ => show win0_3.index t 1 * 128 + 1 * sb.val = 128 * (t.val % 8) + sb.val; rw [a1]; omega

/-- The activations' zero-point block of point `t`, likewise. -/
theorem azero_block (c : Dev nD) (t : Fin cfg0.N) (sb : Fin 128) :
    (iblk m c 4 t : Vec F S1x128 .f32) (ix2 (0 : Fin 1) sb) = m ((c : Thread nD τ).loc main_arg6) (ix1 (blockAt t.val sb)) := by
  obtain ⟨-, -, -, -, -, -, -, -, a0, a1, -⟩ := index_facts t
  unfold iblk
  rw [View.read_apply]
  show V m c main_v1 _ = _
  rw [azero_row]
  refine (congrArg _ (?_ : _ = ix2 (0 : Fin 1) (blockAt t.val sb))).trans (shapeCast_a_1a_apply _ _ _ _)
  funext a; apply Fin.ext
  match a with
  | ⟨0, _⟩ => show win0_4.index t 0 * 1 + 1 * 0 = 0; rw [a0]
  | ⟨1, _⟩ => show win0_4.index t 1 * 128 + 1 * sb.val = 128 * (t.val % 8) + sb.val; rw [a1]; omega

/-- The bias block of point `t`: the column run's 1024 entries. -/
theorem bias_block (c : Dev nD) (t : Fin cfg0.N) (cc : Fin 1024) :
    (iblk m c 2 t : Vec F S1x1024 .f32) (ix2 (0 : Fin 1) cc) = m ((c : Thread nD τ).loc main_arg2) (ix1 (colOf t.val cc)) := by
  obtain ⟨-, -, -, -, a0, a1, -⟩ := index_facts t
  have hq := colRun_lt t
  unfold iblk
  rw [View.read_apply]
  show V m c main_v2 _ = _
  rw [bias_row]
  refine (congrArg _ (?_ : _ = ix2 (0 : Fin 1) (colOf t.val cc))).trans (shapeCast_a_1a_apply _ _ _ _)
  funext a; apply Fin.ext
  match a with
  | ⟨0, _⟩ => show win0_2.index t 0 * 1 + 1 * 0 = 0; rw [a0]
  | ⟨1, _⟩ => show win0_2.index t 1 * 1024 + 1 * cc.val = 1024 * (t.val / 8 % 4) + cc.val; rw [a1, Nat.mod_eq_of_lt hq]; omega

/-- Entry `(r, cc)` of point `t`'s output block is entry `(r, column cc of the column run)` of the output array. -/
theorem out_pos (t : Fin cfg0.N) (r cc : Fin 1024) :
    ((cfg0.win 7).blk t).view.emb (ix2 r cc) = (ix2 r (colOf t.val cc) : S1024x4096.Idx) := by
  obtain ⟨-, -, -, -, -, -, -, -, -, -, -, -, -, -, a0, a1⟩ := index_facts t
  have hq := colRun_lt t
  funext a; apply Fin.ext
  match a with
  | ⟨0, _⟩ => show win0_7.index t 0 * 1024 + 1 * r.val = r.val; rw [a0]; omega
  | ⟨1, _⟩ => show win0_7.index t 1 * 1024 + 1 * cc.val = 1024 * (t.val / 8 % 4) + cc.val; rw [a1, Nat.mod_eq_of_lt hq]; omega

end Cert.QuantLinear.Blocks

end
-- ==== Proof.Pieces.lean ====
/-
  What the body leaves in the block it keeps between grid points, and in the output block, as values.

  Every grid point runs the same whole-block update of the kept block: it loads the block, adds the product of the
  point's quantised activation block and the transposed quantised weight block, and stores it back (`step`). The
  first point of a run of eight stores the zero block first; the last one also stores the output block, which is the
  kept block with the bias row added to each row.
-/
import proofs.«113530_j13520557047882_1_alg».proof.Proof.Gen.KernelIdeal.Frame
import Idealize.ShloMosaic.Lib.Pipeline.Value

set_option maxRecDepth 16384

noncomputable section

namespace Cert.QuantLinear.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- What one grid point adds to the block it keeps, as a function of the point's seven input blocks and of what the
    block held (`acc`): the payload of the body's one whole-block store into the kept block. -/
abbrev step (x0 : Vec F S1024x512 .f32) (x1 : Vec F S1024x512 .f32) (x3 : Vec F S1x128 .f32) (x4 : Vec F S1x128 .f32)
    (x5 : Vec F S1024x128 .f32) (x6 : Vec F S1024x128 .f32) (acc : Vec F S1024x1024 .f32) : Vec F S1024x1024 .f32 :=
  k0_pay1 (k0_pay4 x5) (k0_pay5 x6) (k0_pay6 x0 x3 x4) (k0_pay7 x1 x5 x6) (Scalar.ofBits .f32 0x00000000#32) acc

/-- At a point that neither starts nor ends a run of eight, the kept block ends at one step over what it held. -/
theorem kept_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : ¬cond0_1 i) (x0 : Vec F S1024x512 .f32) (x1 : Vec F S1024x512 .f32) (x2 : Vec F S1x1024 .f32) (x3 : Vec F S1x128 .f32) (x4 : Vec F S1x128 .f32) (x5 : Vec F S1024x128 .f32) (x6 : Vec F S1024x128 .f32) (xs0 : Vec F S1024x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = step x0 x1 x3 x4 x5 x6 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg4.read_unread, harg6.read_unread, harg7.read_unread, harg8.read_unread,
    harg9.read_unread, harg11.read_unread, View.ld_unit_zero (S := S1024x512) hz, View.ld_unit_zero (S := S1x128) hz,
    View.ld_unit_zero (S := S1024x128) hz, View.ld_unit_zero (S := S1024x1024) hz]

/-- At the last point of a run of eight the kept block ends the same way, -/
theorem kept_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i) (x0 : Vec F S1024x512 .f32) (x1 : Vec F S1024x512 .f32) (x2 : Vec F S1x1024 .f32) (x3 : Vec F S1x128 .f32) (x4 : Vec F S1x128 .f32) (x5 : Vec F S1024x128 .f32) (x6 : Vec F S1024x128 .f32) (xs0 : Vec F S1024x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = step x0 x1 x3 x4 x5 x6 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg6.read_unread, harg7.read_unread, harg8.read_unread,
    harg9.read_unread, harg11.read_unread, View.ld_unit_zero (S := S1024x512) hz, View.ld_unit_zero (S := S1x128) hz,
    View.ld_unit_zero (S := S1024x128) hz, View.ld_unit_zero (S := S1024x1024) hz]

/-- and the output block is that, with the bias row added to every row. -/
theorem out_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1024 .f32) (harg10 : arg10.IsWhole) (arg11 : Memref sig .tc .vmem S1024x1024 .f32) (harg11 : arg11.IsWhole) (hc0 : ¬cond0_0 i) (hc1 : cond0_1 i) (x0 : Vec F S1024x512 .f32) (x1 : Vec F S1024x512 .f32) (x2 : Vec F S1x1024 .f32) (x3 : Vec F S1x128 .f32) (x4 : Vec F S1x128 .f32) (x5 : Vec F S1024x128 .f32) (x6 : Vec F S1024x128 .f32) (xs0 : Vec F S1024x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay2 (step x0 x1 x3 x4 x5 x6 xs0) x2 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread,
    harg9.read_unread, harg11.read_unread, View.ld_unit_zero (S := S1024x512) hz, View.ld_unit_zero (S := S1x128) hz,
    View.ld_unit_zero (S := S1024x128) hz, View.ld_unit_zero (S := S1024x1024) hz, View.ld_unit_zero (S := S1x1024) hz,
    View.readCov_unit_zero (S := S1024x1024) _ hz]

/-- At the first point of a run of eight the body first stores the zero block, so the kept block ends at one step over
    the zero block, whatever it held. -/
theorem kept_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x1024 .f32) (harg10 : arg10.IsWhole) (arg11 : Memref sig .tc .vmem S1024x1024 .f32) (harg11 : arg11.IsWhole) (hc0 : cond0_0 i) (hc1 : ¬cond0_1 i) (x0 : Vec F S1024x512 .f32) (x1 : Vec F S1024x512 .f32) (x2 : Vec F S1x1024 .f32) (x3 : Vec F S1x128 .f32) (x4 : Vec F S1x128 .f32) (x5 : Vec F S1024x128 .f32) (x6 : Vec F S1024x128 .f32) :
    sout0_A_0 c i arg3 harg3 arg4 harg4 arg5 harg5 arg6 harg6 arg7 harg7 arg8 harg8 arg9 harg9 arg10 harg10 arg11 harg11 hc0 hc1 x0 x1 x2 x3 x4 x5 x6 = step x0 x1 x3 x4 x5 x6 k0_pay3 := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg6.read_unread, harg7.read_unread, harg8.read_unread,
    harg9.read_unread, harg11.read_unread, View.ld_unit_zero (S := S1024x512) hz, View.ld_unit_zero (S := S1x128) hz,
    View.ld_unit_zero (S := S1024x128) hz, View.ld_unit_zero (S := S1024x1024) hz]

end Cert.QuantLinear.Pieces

end
-- ==== Proof.Fold.lean ====
/-
  What the block kept between grid points holds after each point.

  The kept block is reset to the zero block at the first point of every run of eight points (one run per column run)
  and every point adds its addend. So after point `t`, which is point `t % 8` of the run that starts at `8 * (t / 8)`,
  it holds zero plus the addends of the run's points up to `t`: the fold of the run, unrolled at an index.
  Stated over the two facts it needs of the body's arithmetic — a step adds the point's addend, the reset block is
  zero — which the arithmetic's own module supplies.
-/
import proofs.«113530_j13520557047882_1_alg».proof.Proof.Gen.KernelIdeal.Value
import proofs.«113530_j13520557047882_1_alg».proof.Proof.Pieces
import proofs.«113530_j13520557047882_1_alg».proof.Proof.QuantLinear
import Idealize.ShloMosaic.Lib.Pipeline.Value
import Idealize.ShloMosaic.Lib.ValueIdx

noncomputable section

namespace Cert.QuantLinear.Fold

open Cert.KernelIdeal Cert.KernelIdeal.Gen Idealize.ShloMosaic Idealize.ShloMosaic.TcCoe Idealize.SL.Sem
open Idealize.ShloMosaic.ValueIdx Cert.QuantLinear Cert.QuantLinear.Pieces

variable (m : (ℓ : Loc nD τ sig) → Buf (Elt Ideal) ℓ)

/-- The seven arguments on core `c`, as arrays of extended reals. -/
abbrev argX (c : Dev nD) : (⟨2, ![1024, 4096]⟩ : Shape).Idx → EReal := m ((c : Thread nD τ).loc main_arg0)
abbrev argW (c : Dev nD) : (⟨2, ![4096, 4096]⟩ : Shape).Idx → EReal := m ((c : Thread nD τ).loc main_arg1)
abbrev argB (c : Dev nD) : (⟨1, ![4096]⟩ : Shape).Idx → EReal := m ((c : Thread nD τ).loc main_arg2)
abbrev argWS (c : Dev nD) : (⟨2, ![4096, 1024]⟩ : Shape).Idx → EReal := m ((c : Thread nD τ).loc main_arg3)
abbrev argWZ (c : Dev nD) : (⟨2, ![4096, 1024]⟩ : Shape).Idx → EReal := m ((c : Thread nD τ).loc main_arg4)
abbrev argAS (c : Dev nD) : (⟨1, ![1024]⟩ : Shape).Idx → EReal := m ((c : Thread nD τ).loc main_arg5)
abbrev argAZ (c : Dev nD) : (⟨1, ![1024]⟩ : Shape).Idx → EReal := m ((c : Thread nD τ).loc main_arg6)

/-- Point `n`'s addend on core `c`, at an index of the kept block. -/
abbrev addendAt (c : Dev nD) (n : Nat) (i : S1024x1024.Idx) : EReal :=
  addend (argX m c) (argW m c) (argWS m c) (argWZ m c) (argAS m c) (argAZ m c) n (i 0) (i 1)

/-- One step of the kept block at point `t`, over the point's own input blocks. -/
abbrev stepAt (c : Dev nD) (t : Fin cfg0.N) (acc : Vec Ideal S1024x1024 .f32) : Vec Ideal S1024x1024 .f32 :=
  step (iblk m c 0 t) (iblk m c 1 t) (iblk m c 3 t) (iblk m c 4 t) (iblk m c 5 t) (iblk m c 6 t) acc

/-- The kept block after point `t`: zero plus the addends of its run's points up to `t`. -/
theorem kept_after (c : Dev nD)
    (hstep : ∀ (t : Fin cfg0.N) (acc : Vec Ideal S1024x1024 .f32) (i : S1024x1024.Idx),
      stepAt m c t acc i = acc i + addendAt m c t.val i)
    (hreset : ∀ i : S1024x1024.Idx, (k0_pay3 (F := Ideal)) i = Ideal.ofBits .f32 0x00000000#32)
    (t : Fin cfg0.N) (i : S1024x1024.Idx) :
    (outsAt0 m c t.val t.isLt).2 i
      = (Ideal.ofBits .f32 0x00000000#32 : EReal)
        + ∑ s ∈ Finset.range (t.val % 8 + 1), addendAt m c (8 * (t.val / 8) + s) i := by
  have hN : cfg0.N = 32 := N_0
  have ht := t.isLt
  rw [Cert.KernelIdeal.Value.soutsAt0_0_eq m c t]
  refine Pipeline.accAt_add_apply (ι := S1024x1024.Idx) (β := EReal) _ _
    (fun _ => (Ideal.ofBits .f32 0x00000000#32 : EReal)) (fun n i => addendAt m c n i) (8 * (t.val / 8)) 7 ?ha ?hg
    (t.val % 8) (by omega) _ i
  case ha =>
    intro h i
    have h0 : (8 * (t.val / 8)) % 8 = 0 := Nat.mul_mod_right _ _
    have h1 : ¬(8 * (t.val / 8)) % 8 = 7 := by omega
    unfold Cert.KernelIdeal.Value.scAt0_0
    rw [dif_pos h0, dif_neg h1, kept_A]
    exact (hstep ⟨8 * (t.val / 8), h⟩ _ i).trans (by rw [hreset])
  case hg =>
    intro n h acc i hlo hhi
    have h0 : ¬n % 8 = 0 := by omega
    unfold Cert.KernelIdeal.Value.scAt0_0
    by_cases h1 : n % 8 = 7
    · rw [dif_neg h0, dif_pos h1, kept_C]
      exact hstep ⟨n, h⟩ acc i
    · rw [dif_neg h0, dif_neg h1, kept_B]
      exact hstep ⟨n, h⟩ acc i

end Cert.QuantLinear.Fold

end
-- ==== Proof.Step.lean ====
/-
  One grid point's update of the kept block, over the point's own blocks, in terms of the argument arrays.

  The point's quantised activation block is the quantised activations of rows 0 … 1023 at the point's feature run,
  its quantised weight block the quantised weights of the point's column run at that feature run; so the product
  the point adds at `(r, cc)` is the point's addend, and the block the first point of a run stores is zero.
-/
import proofs.«113530_j13520557047882_1_alg».proof.Proof.Payload
import proofs.«113530_j13520557047882_1_alg».proof.Proof.Blocks
import proofs.«113530_j13520557047882_1_alg».proof.Proof.Fold
import Idealize.ShloMosaic.Lib.ValueIdx

noncomputable section

namespace Cert.QuantLinear.Step

open Cert.KernelIdeal Cert.KernelIdeal.Gen Idealize.ShloMosaic Idealize.ShloMosaic.TcCoe Idealize.SL.Sem
open Idealize.ShloMosaic.ValueIdx Cert.QuantLinear Cert.QuantLinear.Pieces Cert.QuantLinear.Blocks Cert.QuantLinear.Fold Cert.QuantLinear.Payload

variable (m : (ℓ : Loc nD τ sig) → Buf (Elt Ideal) ℓ)

/-- A step at point `t` adds the point's addend. -/
theorem step_adds (c : Dev nD) (t : Fin cfg0.N) (acc : Vec Ideal S1024x1024 .f32) (i : S1024x1024.Idx) :
    stepAt m c t acc i = acc i + addendAt m c t.val i := by
  obtain ⟨r, cc, rfl⟩ : ∃ (r cc : Fin 1024), i = ix2 r cc := ⟨i 0, i 1, eq_ix2 i⟩
  refine (acc_quant_apply (iblk m c 1 t) (iblk m c 5 t) (iblk m c 6 t)
    (k0_pay6 (F := Ideal) (iblk m c 0 t) (iblk m c 3 t) (iblk m c 4 t)) acc r cc).trans ?_
  refine congrArg (acc (ix2 r cc) + ·) ?_
  show _ = ∑ e : Fin 512, actQ (argX m c) (argAS m c) (argAZ m c) r (featOf t.val e)
    * weightQ (argW m c) (argWS m c) (argWZ m c) (colOf t.val cc) (featOf t.val e)
  refine Finset.sum_congr rfl fun e _ => ?_
  rw [act_apply, act_block, weight_block, wscale_block, wzero_block, ascale_block, azero_block]
  unfold actQ weightQ
  rw [blockOf_featOf]

/-- The block the first point of a run stores is zero. -/
theorem reset_zero (i : S1024x1024.Idx) : (k0_pay3 (F := Ideal)) i = Ideal.ofBits .f32 0x00000000#32 := by
  obtain ⟨r, cc, rfl⟩ : ∃ (r cc : Fin 1024), i = ix2 r cc := ⟨i 0, i 1, eq_ix2 i⟩
  exact reset_apply r cc

end Cert.QuantLinear.Step

end
-- ==== Proof.Final.lean ====
/-
  The kernel's result array, as one function of the argument arrays.

  Only the last point of each run of eight writes the output block back: points 7, 15, 23, 31, one per column run.
  What such a point writes is the kept block after the run — zero plus the run's eight addends — with the bias of
  each column added, which is the layer's output on the column run's 1024 columns (the sum over the 4096 features
  regrouped into the eight feature runs). The four column runs' blocks tile the array, so the array ends at the
  layer's output: the block a writing point writes is the block of one whole-array function, and every index lies in
  some writing point's block.
-/
import proofs.«113530_j13520557047882_1_alg».proof.Proof.Gen.KernelIdeal.Value
import proofs.«113530_j13520557047882_1_alg».proof.Proof.Step
import Idealize.ShloMosaic.Lib.Pipeline.Value

noncomputable section

namespace Cert.QuantLinear.Final

open Cert.KernelIdeal Cert.KernelIdeal.Gen Idealize.ShloMosaic Idealize.ShloMosaic.TcCoe Idealize.SL.Sem
open Idealize.ShloMosaic.ValueIdx Cert.QuantLinear Cert.QuantLinear.Pieces Cert.QuantLinear.Blocks Cert.QuantLinear.Fold Cert.QuantLinear.Payload Cert.QuantLinear.Step

open Idealize.ShloMosaic.Pipeline (Dat)

variable (m : (ℓ : Loc nD τ sig) → Buf (Elt Ideal) ℓ) (ρ : Dev nD → PrngReg)

/-- The layer's output of core `c`'s arguments. -/
abbrev result (c : Dev nD) : (⟨2, ![1024, 4096]⟩ : Shape).Idx → EReal :=
  out (argX m c) (argW m c) (argB m c) (argWS m c) (argWZ m c) (argAS m c) (argAZ m c)

/-- A point's column run is the column run of the first point of its run of eight. -/
theorem colOf_run (n : Nat) (cc : Fin 1024) : colOf n cc = colOf (8 * (n / 8)) cc :=
  Fin.ext (by
    show 1024 * (n / 8 % 4) + cc.val = 1024 * (8 * (n / 8) / 8 % 4) + cc.val
    rw [Nat.mul_div_cancel_left _ (by decide : 0 < 8)])

/-- What a writing point writes back is its block of the layer's output. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have h0 : ¬t.val % 8 = 0 := by omega
  have hq := colRun_lt t
  -- the kept block after the point is one step over what the point before left
  have hk : stepAt m c t (outsAt0 m c (t.val - 1) (Nat.lt_of_le_of_lt (Nat.sub_le _ _) t.isLt)).2
      = (outsAt0 m c t.val t.isLt).2 := by
    rw [outsAt0_C m c t h0 h7]; dsimp only; rw [kept_C]
  rw [Cert.KernelIdeal.Value.flushed7_C m c t h0 h7, out_C]
  funext y
  obtain ⟨r, cc, rfl⟩ : ∃ (r cc : Fin 1024), y = ix2 r cc := ⟨y 0, y 1, eq_ix2 y⟩
  show k0_pay2 (F := Ideal) (stepAt m c t (outsAt0 m c (t.val - 1) _).2) (iblk m c 2 t) (ix2 r cc)
    = result m c (((cfg0.win 7).blk t).view.emb (ix2 r cc))
  rw [out_pos, bias_apply, hk, kept_after m c (step_adds m c) reset_zero t (ix2 r cc), bias_block, h7, colOf_run]
  exact (outAt_eq_runs (argX m c) (argW m c) (argB m c) (argWS m c) (argWZ m c) (argAS m c) (argAZ m c)
    (t.val / 8) hq r cc).symm

/-- Every index of the output array lies in the block of the point that ends its column's run. -/
theorem covered (i : S1024x4096.Idx) :
    ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 32 := N_0
  let t : Fin cfg0.N := ⟨8 * ((i 1).val / 1024) + 7, by rw [hN]; omega⟩
  have htv : t.val = 8 * ((i 1).val / 1024) + 7 := rfl
  refine ⟨t, (flush0_7 t).mpr (by rw [htv]; omega), ?_⟩
  obtain ⟨-, -, -, -, -, -, -, -, -, -, -, -, -, -, a0, a1⟩ := index_facts t
  show i ∈ ((View.whole main_v3).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [a0]; omega
  | ⟨1, _⟩ =>
    show win0_7.index t (1 : Fin 2) * 1024 ≤ (i 1).val ∧ (i 1).val < win0_7.index t (1 : Fin 2) * 1024 + 1024
    rw [a1, htv]; omega

/-- The output array after the run is the layer's output. -/
theorem final (c : Dev nD) : (dats m 0 c).arrAt 7 cfg0.N = result m c :=
  (dats m 0 c).arrAt_eq_of_cover 7 (result m c) (flushed_eq m c) covered

/-- The kernel's run: it ends with the result at the layer's output of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.QuantLinear.Final

end
-- ==== Proof.RefValue.lean ====
/-
  The reference program's result is the specification's `out`.

  The reference regroups each row of 4096 features as 1024 blocks of 4 positions: feature `k` is position `k % 4` of
  block `k / 4`, and `4 * (k / 4) + k % 4 = k` brings it back. Over the regrouped array the block's scale and zero
  point are spread along the rows and the positions, and every element is divided, shifted, rounded to nearest with
  ties to even, clipped to [0, 255], shifted back and scaled: that is `quant`. The weight is treated the same way with
  one scale and zero point per output row and block, and is then transposed, so that its element `(k, j)` is the
  quantised weight of output row `j`, feature `k`. The contraction sums over the features and the bias of the column,
  spread along the rows, is added.
-/
import proofs.«113530_j13520557047882_1_alg».proof.Proof.Gen.ReferenceIdeal.Read
import proofs.«113530_j13520557047882_1_alg».proof.Proof.QuantLinear

noncomputable section

namespace Cert.QuantLinear.Reference

open Cert.ReferenceIdeal Cert.ReferenceIdeal.Read Idealize.ShloMosaic Idealize.ShloMosaic.ValueIdx Cert.QuantLinear

/-- The position of feature `k` inside its block. -/
def posOf (k : Fin 4096) : Fin 4 := ⟨k.val % 4, Nat.mod_lt _ (by decide)⟩

/-! ## The activations -/

/-- Regrouping a row: feature `k` of row `i` is position `k % 4` of block `k / 4`. -/
theorem act_split (i : Fin 1024) (k : Fin 4096) :
    idx_main_v13 (ix2 i k) = ix3 i (blockOf k) (posOf k) := by
  have hk := k.isLt
  funext a
  apply Fin.ext
  match a with
  | ⟨0, _⟩ => show (i.val * 4096 + k.val) / 4096 = i.val; omega
  | ⟨1, _⟩ => show (i.val * 4096 + k.val) / 4 % 1024 = k.val / 4; omega
  | ⟨2, _⟩ => show (i.val * 4096 + k.val) % 4 = k.val % 4; omega

/-- Position `k % 4` of block `k / 4` of row `i` is feature `k` of the row. -/
theorem act_join (i : Fin 1024) (k : Fin 4096) :
    idx_main_v0 (ix3 i (blockOf k) (posOf k)) = ix2 i k := by
  have hk := k.isLt
  have hi := i.isLt
  funext a
  apply Fin.ext
  match a with
  | ⟨0, _⟩ => show ((i.val * 1024 + k.val / 4) * 4 + k.val % 4) / 4096 = i.val; omega
  | ⟨1, _⟩ => show ((i.val * 1024 + k.val / 4) * 4 + k.val % 4) % 4096 = k.val; omega

/-- The quantised activations, as the reference computes them, at row `i` and feature `k`. -/
theorem act_read (x0 : (⟨S1024x4096, .f32⟩ : BufTy).Contents (Elt Ideal))
    (x5 x6 : (⟨S1024, .f32⟩ : BufTy).Contents (Elt Ideal)) (i : Fin 1024) (k : Fin 4096) :
    val_main_v13 (F := Ideal) x0 x5 x6 (ix2 i k) = actQ x0 x5 x6 i k := by
  -- a block's scale and zero point, spread along rows and positions, read at the block
  have h3 : ∀ (b : Fin 1024) (p : Fin 4), idx_main_v1 (idx_main_v3 (ix3 i b p)) = ix1 b :=
    fun b p => funext fun a => match a with | ⟨0, _⟩ => rfl
  have h5 : ∀ (b : Fin 1024) (p : Fin 4), idx_main_v2 (idx_main_v5 (ix3 i b p)) = ix1 b :=
    fun b p => funext fun a => match a with | ⟨0, _⟩ => rfl
  have h9 : ∀ (b : Fin 1024) (p : Fin 4), idx_main_v2 (idx_main_v9 (ix3 i b p)) = ix1 b :=
    fun b p => funext fun a => match a with | ⟨0, _⟩ => rfl
  have h11 : ∀ (b : Fin 1024) (p : Fin 4), idx_main_v1 (idx_main_v11 (ix3 i b p)) = ix1 b :=
    fun b p => funext fun a => match a with | ⟨0, _⟩ => rfl
  simp only [val_main_v13_apply, act_split, val_main_v12_apply, val_main_v10_apply, val_main_v8_apply,
    val_main_call1_v4_apply, val_main_call1_v3_apply, val_main_cst_0_apply, val_main_call1_v2_apply,
    val_main_call1_v1_apply, val_main_call1_v0_apply, val_main_cst_apply, val_main_v7_apply, val_main_v6_apply,
    val_main_v4_apply, val_main_v0_apply, act_join, val_main_v3_apply, val_main_v1_apply, h3, val_main_v5_apply,
    val_main_v2_apply, h5, val_main_v9_apply, h9, val_main_v11_apply, h11,
    Ideal.mulf_def, Ideal.subf_def, Ideal.minimumf_def, Ideal.maximumf_def, Ideal.ofBits_def,
    Ideal.hostUnary_roundeven_def, Ideal.addf_def, Ideal.hostDivf_def]
  rfl

/-! ## The weight -/

/-- Regrouping a row of the weight: feature `k` of output row `j` is position `k % 4` of block `k / 4`. -/
theorem weight_split (j k : Fin 4096) :
    idx_main_v27 (ix2 j k) = ix3 j (blockOf k) (posOf k) := by
  have hk := k.isLt
  funext a
  apply Fin.ext
  match a with
  | ⟨0, _⟩ => show (j.val * 4096 + k.val) / 4096 = j.val; omega
  | ⟨1, _⟩ => show (j.val * 4096 + k.val) / 4 % 1024 = k.val / 4; omega
  | ⟨2, _⟩ => show (j.val * 4096 + k.val) % 4 = k.val % 4; omega

/-- Position `k % 4` of block `k / 4` of output row `j` is feature `k` of the row. -/
theorem weight_join (j k : Fin 4096) :
    idx_main_v14 (ix3 j (blockOf k) (posOf k)) = ix2 j k := by
  have hk := k.isLt
  have hj := j.isLt
  funext a
  apply Fin.ext
  match a with
  | ⟨0, _⟩ => show ((j.val * 1024 + k.val / 4) * 4 + k.val % 4) / 4096 = j.val; omega
  | ⟨1, _⟩ => show ((j.val * 1024 + k.val / 4) * 4 + k.val % 4) % 4096 = k.val; omega

/-- The transposed array at `(k, j)` is the array at `(j, k)`. -/
theorem weight_swap (k j : Fin 4096) : idx_main_v28 (ix2 k j) = ix2 j k :=
  funext fun a => match a with | ⟨0, _⟩ => rfl | ⟨1, _⟩ => rfl

/-- The transposed quantised weight, as the reference computes it, at feature `k` and output row `j`. -/
theorem weight_read (x1 : (⟨S4096x4096, .f32⟩ : BufTy).Contents (Elt Ideal))
    (x3 x4 : (⟨S4096x1024, .f32⟩ : BufTy).Contents (Elt Ideal)) (k j : Fin 4096) :
    val_main_v28 (F := Ideal) x1 x3 x4 (ix2 k j) = weightQ x1 x3 x4 j k := by
  -- the scale and zero point of a row's block, spread along the positions, read at the row and the block
  have h17 : ∀ (b : Fin 1024) (p : Fin 4), idx_main_v15 (idx_main_v17 (ix3 j b p)) = ix2 j b :=
    fun b p => funext fun a => match a with | ⟨0, _⟩ => rfl | ⟨1, _⟩ => rfl
  have h19 : ∀ (b : Fin 1024) (p : Fin 4), idx_main_v16 (idx_main_v19 (ix3 j b p)) = ix2 j b :=
    fun b p => funext fun a => match a with | ⟨0, _⟩ => rfl | ⟨1, _⟩ => rfl
  have h23 : ∀ (b : Fin 1024) (p : Fin 4), idx_main_v16 (idx_main_v23 (ix3 j b p)) = ix2 j b :=
    fun b p => funext fun a => match a with | ⟨0, _⟩ => rfl | ⟨1, _⟩ => rfl
  have h25 : ∀ (b : Fin 1024) (p : Fin 4), idx_main_v15 (idx_main_v25 (ix3 j b p)) = ix2 j b :=
    fun b p => funext fun a => match a with | ⟨0, _⟩ => rfl | ⟨1, _⟩ => rfl
  simp only [val_main_v28_apply, weight_swap, val_main_v27_apply, weight_split, val_main_v26_apply,
    val_main_v24_apply, val_main_v22_apply, val_main_call3_v4_apply, val_main_call3_v3_apply, val_main_cst_2_apply,
    val_main_call3_v2_apply, val_main_call3_v1_apply, val_main_call3_v0_apply, val_main_cst_1_apply,
    val_main_v21_apply, val_main_v20_apply, val_main_v18_apply, val_main_v14_apply, weight_join, val_main_v17_apply,
    val_main_v15_apply, h17, val_main_v19_apply, val_main_v16_apply, h19, val_main_v23_apply, h23,
    val_main_v25_apply, h25,
    Ideal.mulf_def, Ideal.subf_def, Ideal.minimumf_def, Ideal.maximumf_def, Ideal.ofBits_def,
    Ideal.hostUnary_roundeven_def, Ideal.addf_def, Ideal.hostDivf_def]
  rfl

/-! ## The bias and the whole layer -/

/-- The bias, spread along the rows, read at row `i` and column `j`. -/
theorem bias_read (x2 : (⟨S4096, .f32⟩ : BufTy).Contents (Elt Ideal)) (i : Fin 1024) (j : Fin 4096) :
    val_main_v31 (F := Ideal) x2 (ix2 i j) = x2 (ix1 j) := by
  have h : idx_main_v30 (idx_main_v31 (ix2 i j)) = ix1 j := funext fun a => match a with | ⟨0, _⟩ => rfl
  rw [val_main_v31_apply, val_main_v30_apply, h]

/-- The reference's result is the layer's output. -/
theorem reference_eq_out (x0 : (⟨S1024x4096, .f32⟩ : BufTy).Contents (Elt Ideal)) (x1 : (⟨S4096x4096, .f32⟩ : BufTy).Contents (Elt Ideal)) (x2 : (⟨S4096, .f32⟩ : BufTy).Contents (Elt Ideal)) (x3 x4 : (⟨S4096x1024, .f32⟩ : BufTy).Contents (Elt Ideal)) (x5 x6 : (⟨S1024, .f32⟩ : BufTy).Contents (Elt Ideal)) :
    Cert.ReferenceIdeal.Read.val_main_v32 (F := Ideal) x0 x1 x2 x3 x4 x5 x6 = Cert.QuantLinear.out x0 x1 x2 x3 x4 x5 x6 := by
  funext ij
  obtain ⟨i, j, rfl⟩ : ∃ (i : Fin 1024) (j : Fin 4096), ij = ix2 i j := ⟨ij 0, ij 1, eq_ix2 ij⟩
  -- the contraction's two operands at feature `k`: row `i` of the activations, column `j` of the transposed weight
  have hl : ∀ k : Fin 4096, lidx_main_v29 (ix2 i j) k = ix2 i k :=
    fun k => funext fun a => match a with | ⟨0, _⟩ => rfl | ⟨1, _⟩ => rfl
  have hr : ∀ k : Fin 4096, ridx_main_v29 (ix2 i j) k = ix2 k j :=
    fun k => funext fun a => match a with | ⟨0, _⟩ => rfl | ⟨1, _⟩ => rfl
  rw [val_main_v32_apply, val_main_v29_apply, bias_read, Ideal.addf_def]
  show _ = outAt x0 x1 x2 x3 x4 x5 x6 i j
  unfold outAt
  congr 1
  refine Finset.sum_congr rfl fun k _ => ?_
  rw [hl, hr, act_read, weight_read]

end Cert.QuantLinear.Reference

end
-- ==== Proof.lean ====
/-
  A linear layer over fake-quantised activations and weights: the kernel against its reference, over the extended reals.

  Both programs quantise every activation and every weight to the 256 levels of its block of four features — divide
  by the block's scale, add its zero point, round to nearest with ties to even, clip to [0, 255] — map it back, and
  contract over the 4096 features, adding the bias. The reference does it on whole arrays; the kernel walks the
  output in four runs of 1024 columns and the features in eight runs of 512, keeping a block of partial sums that
  it resets at a run's first point and writes out, with the bias, at its last. At the ideal values the rounding,
  the quotient, the maximum and the minimum are the same functions in both programs and a change of float format is
  the identity, so the two results differ only in how the sum over the features is grouped; addition of extended
  reals is commutative and associative, so they are equal for all inputs, finite or not.

  The three frames are the generated ones (the reference's is its generated run with the result dropped), the
  idealization rewrote nothing, and the value claim sets the kernel's run (`QuantLinear.Final.run`: its result array
  is the layer's output `QuantLinear.out` of the arguments) beside the reference's generated run, whose result is the
  same function (`QuantLinear.Reference.reference_eq_out`).
-/
import proofs.«113530_j13520557047882_1_alg».proof.Defs
import proofs.«113530_j13520557047882_1_alg».proof.Proof.Gen.Kernel
import proofs.«113530_j13520557047882_1_alg».proof.Proof.Gen.Kernel.Skeleton
import proofs.«113530_j13520557047882_1_alg».proof.Proof.Gen.Kernel.Launch
import proofs.«113530_j13520557047882_1_alg».proof.Proof.Gen.Kernel.Points
import proofs.«113530_j13520557047882_1_alg».proof.Proof.Gen.Kernel.Frame
import proofs.«113530_j13520557047882_1_alg».proof.Proof.Gen.KernelIdeal
import proofs.«113530_j13520557047882_1_alg».proof.Proof.Gen.KernelIdeal.Skeleton
import proofs.«113530_j13520557047882_1_alg».proof.Proof.Gen.KernelIdeal.Launch
import proofs.«113530_j13520557047882_1_alg».proof.Proof.Gen.KernelIdeal.Points
import proofs.«113530_j13520557047882_1_alg».proof.Proof.Gen.KernelIdeal.Frame
import proofs.«113530_j13520557047882_1_alg».proof.Proof.Gen.ReferenceIdeal
import proofs.«113530_j13520557047882_1_alg».proof.Proof.Gen.KernelIdeal.Value
import proofs.«113530_j13520557047882_1_alg».proof.Proof.Gen.ReferenceIdeal.Run
import proofs.«113530_j13520557047882_1_alg».proof.Proof.Gen.ReferenceIdeal.Read
import proofs.«113530_j13520557047882_1_alg».proof.Proof.Gen.Pre_finite_inputs
import proofs.«113530_j13520557047882_1_alg».proof.Proof.Final
import proofs.«113530_j13520557047882_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the layer's output of those arguments. -/
theorem algebraic : Cert.algebraic_KernelIdeal_ReferenceIdeal := by
  intro m ρ m' ρ' _ hagree
  refine ⟨fun c => Cert.QuantLinear.Final.result m c, Cert.QuantLinear.Final.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v32_eq, Cert.QuantLinear.Reference.reference_eq_out, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
